-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel

variable [Facts]

def fn {F : FTy → Type} [FloatOps F] (main_arg0 : FVec F S16384x3 .f32) (main_arg1 : FVec F S16384x3 .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S16384x3 .f32 := Host.absf main_arg1
  let main_cst_0 : FVec F S_ .f32 := constant S_ .f32 0x7F800000#32
  let main_v5 : FVec F S16384x3 .f32 := broadcastInDim S16384x3 ![] bcast_S_S16384x3 main_cst_0
  let main_v6 : IVec S16384x3 1 := cmpf .olt main_v4 main_v5
  let main_c_1 : IVec S_ 1 := constantI S_ 1 1#1
  let main_v7 : IVec S_ 1 := (fun x v => Host.reduce IntOp.andi x v reducesTo_S16384x3_S_d0_1 h_S_) main_v6 main_c_1
  let main_v8 : IVec S_ 1 := andi main_v3 main_v7
  main_v8
-- ==== Kernel.lean ====
abbrev S16384x3 : Shape := ⟨2, ![16384, 3]⟩
abbrev S3x16384 : Shape := ⟨2, ![3, 16384]⟩
abbrev S16384x1 : Shape := ⟨2, ![16384, 1]⟩
abbrev S8x1x16384 : Shape := ⟨3, ![8, 1, 16384]⟩
abbrev S2048x3 : Shape := ⟨2, ![2048, 3]⟩
abbrev S3x1024 : Shape := ⟨2, ![3, 1024]⟩
abbrev S2048x1 : Shape := ⟨2, ![2048, 1]⟩
abbrev S1x1x1024 : Shape := ⟨3, ![1, 1, 1024]⟩
abbrev S2048x1024 : Shape := ⟨2, ![2048, 1024]⟩
abbrev S1x1024 : Shape := ⟨2, ![1, 1024]⟩
abbrev S2048 : Shape := ⟨1, ![2048]⟩
abbrev S1024 : Shape := ⟨1, ![1024]⟩
abbrev S16384 : Shape := ⟨1, ![16384]⟩
abbrev S8x16384 : Shape := ⟨2, ![8, 16384]⟩
abbrev S_ : Shape := ⟨0, ![]⟩
abbrev S32768 : Shape := ⟨1, ![32768]⟩

abbrev nBuf : Space → Nat
  | .hbm => 14
  | .vmem => 9
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S3x16384, .f32⟩
  | .hbm, ⟨3, _⟩ => ⟨S16384x1, .f32⟩
  | .hbm, ⟨4, _⟩ => ⟨S8x1x16384, .f32⟩
  | .hbm, ⟨5, _⟩ => ⟨S16384, .f32⟩
  | .hbm, ⟨6, _⟩ => ⟨S8x16384, .f32⟩
  | .hbm, ⟨7, _⟩ => ⟨S_, .f32⟩
  | .hbm, ⟨8, _⟩ => ⟨S16384, .f32⟩
  | .hbm, ⟨9, _⟩ => ⟨S32768, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S2048x3, .f32⟩
  | .local _ .vmem, ⟨1, _⟩ => ⟨S2048x3, .f32⟩
  | .local _ .vmem, ⟨2, _⟩ => ⟨S3x1024, .f32⟩
  | .local _ .vmem, ⟨3, _⟩ => ⟨S3x1024, .f32⟩
  | .local _ .vmem, ⟨4, _⟩ => ⟨S2048x1, .f32⟩
  | .local _ .vmem, ⟨5, _⟩ => ⟨S2048x1, .f32⟩
  | .local _ .vmem, ⟨6, _⟩ => ⟨S1x1x1024, .f32⟩
  | .local _ .vmem, ⟨7, _⟩ => ⟨S1x1x1024, .f32⟩
  | .local _ .vmem, ⟨8, _⟩ => ⟨S2048x1, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v42 : BitVec 1 := Scalar.cmpi .eq arg1 c15_i32
  let v43 : BitVec 32 := Scalar.extui v42
  let c0_i32_14 : BitVec 32 := 0#32
  let v44 : BitVec 1 := Scalar.cmpi .ne v43 c0_i32_14
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S16384x3_S3x16384_1_0 : S16384x3.Transposes [1, 0] S3x16384
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x3_S2048x3_0_0 : ∀ a, (![0, 0] : Fin 2 → Nat) a + S2048x3.size a ≤ S2048x3.size a
  h_S2048x3 : 0 < S2048x3.numel
  inb_S3x1024_S3x1024_0_0 : ∀ a, (![0, 0] : Fin 2 → Nat) a + S3x1024.size a ≤ S3x1024.size a
  h_S3x1024 : 0 < S3x1024.numel
  shapeCasts_S3x1024_S3x1024 : S3x1024.ShapeCasts S3x1024
  slices_S2048x3_o0_0_S2048x1 : S2048x3.Slices ![0, 0] S2048x1
  slices_S3x1024_o0_0_S1x1024 : S3x1024.Slices ![0, 0] S1x1024
  broadcasts_S2048x1_S2048x1024 : S2048x1.Broadcasts S2048x1024
  broadcasts_S1x1024_S2048x1024 : S1x1024.Broadcasts S2048x1024
  slices_S2048x3_o0_1_S2048x1 : S2048x3.Slices ![0, 1] S2048x1
  slices_S3x1024_o1_0_S1x1024 : S3x1024.Slices ![1, 0] S1x1024
  slices_S2048x3_o0_2_S2048x1 : S2048x3.Slices ![0, 2] S2048x1
  slices_S3x1024_o2_0_S1x1024 : S3x1024.Slices ![2, 0] S1x1024
  reduces_S2048x1024_S2048 : S2048x1024.Reduces [1] S2048
  shapeCasts_S2048_S2048x1 : S2048.ShapeCasts S2048x1
  reduces_S2048x1024_S1024 : S2048x1024.Reduces [0] S1024
  shapeCasts_S1024_S1x1024 : S1024.ShapeCasts S1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  shapeCasts_S16384x1_S16384 : S16384x1.ShapeCasts S16384
  shapeCasts_S8x1x16384_S8x16384 : S8x1x16384.ShapeCasts S8x16384
  reducesTo_S8x16384_S16384_d0 : S8x16384.ReducesTo [0] S16384
  h_S_ : 0 < S_.numel
  concatenates_S16384_S16384_S32768_d0 : Shape.Concatenates [S16384, S16384] S32768 0
  reducesTo_S32768_S_d0 : S32768.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x3.size a ≤ S16384x3.size a
  hwx0_0 : ∀ i : grid0.Coords, EltTy.bits .f32 = 32 ∨ (Rect.block (s := S16384x3) S2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x1024.size a ≤ S3x16384.size a
  hwx0_1 : ∀ i : grid0.Coords, EltTy.bits .f32 = 32 ∨ (Rect.block (s := S3x16384) S3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S16384x1.size a
  hwx0_2 : ∀ i : grid0.Coords, EltTy.bits .f32 = 32 ∨ (Rect.block (s := S16384x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S8x1x16384.size a
  hwx0_3 : ∀ i : grid0.Coords, EltTy.bits .f32 = 32 ∨ (Rect.block (s := S8x1x16384) S1x1x1024.size (cc0_transform_3 i) (hinb0_3 i)).WholeWords (EltTy.packing .f32)

variable [Facts₀]

abbrev win0_0 : Pipeline.Window sig grid0 :=
  Pipeline.Window.ofSpec (Memref.whole main_arg0) S2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S2048x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun _ => false | ⟨_ + 4, h⟩ => absurd h (Nat.not_lt.2 (Nat.le_add_left _ _))

class Facts : Prop extends Facts₀ where

variable [Facts]
-- ==== ReferenceIdeal.lean ====
abbrev S16384x3 : Shape := ⟨2, ![16384, 3]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S32768 : Shape := ⟨1, ![32768]⟩

abbrev nBuf : Space → Nat
  | .hbm => 30
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S16384x3, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x3, .f32⟩
  | .hbm, ⟨7, _⟩ => ⟨S_, .f32⟩
  | .hbm, ⟨8, _⟩ => ⟨S16384, .f32⟩
  | .hbm, ⟨9, _⟩ => ⟨S1x16384, .f32⟩
  | .hbm, ⟨10, _⟩ => ⟨S16384x16384, .f32⟩
  | .hbm, ⟨11, _⟩ => ⟨S16384x16384, .f32⟩
  | .hbm, ⟨12, _⟩ => ⟨S16384x16384, .f32⟩
  | .hbm, ⟨13, _⟩ => ⟨S16384x16384, .f32⟩
  | .hbm, ⟨14, _⟩ => ⟨S_, .f32⟩
  | .hbm, ⟨15, _⟩ => ⟨S16384x16384, .f32⟩
  | .hbm, ⟨16, _⟩ => ⟨S16384x16384, .f32⟩
  | .hbm, ⟨17, _⟩ => ⟨S16384x16384, .f32⟩
  | .hbm, ⟨18, _⟩ => ⟨S_, .f32⟩
  | .hbm, ⟨19, _⟩ => ⟨S16384x16384, .f32⟩
  | .hbm, ⟨20, _⟩ => ⟨S16384x16384, .f32⟩
  | .hbm, ⟨21, _⟩ => ⟨S_, .f32⟩
  | .hbm, ⟨22, _⟩ => ⟨S16384, .f32⟩
  | .hbm, ⟨23, _⟩ => ⟨S_, .f32⟩
  | .hbm, ⟨24, _⟩ => ⟨S16384, .f32⟩
  | .hbm, ⟨25, _⟩ => ⟨S32768, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  reducesTo_S16384x3_S16384_d1 : S16384x3.ReducesTo [1] S16384
  h_S_ : 0 < S_.numel
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S16384_d1 : S16384x16384.ReducesTo [1] S16384
  reducesTo_S16384x16384_S16384_d0 : S16384x16384.ReducesTo [0] S16384
  concatenates_S16384_S16384_S32768_d0 : Shape.Concatenates [S16384, S16384] S32768 0
  reducesTo_S32768_S_d0 : S32768.ReducesTo [0] S_
  dot_S16384x3_S16384x3_S16384x16384_1_1_0_0_n_n_wf : DotDims.WF S16384x3 S16384x3 S16384x16384 [1] [1] [0] [0] [] []

variable [Facts₀]

def dot_S16384x3_S16384x3_S16384x16384_1_1_0_0_n_n : DotDims S16384x3 S16384x3 S16384x16384 where
  lhsContracting := [1]
  rhsContracting := [1]
  lhsNonContracting := [0]
  rhsNonContracting := [0]
  lhsBatch := []
  rhsBatch := []
  wf := dot_S16384x3_S16384x3_S16384x16384_1_1_0_0_n_n_wf

class Facts : Prop extends Facts₀ where

variable [Facts]
-- ==== Proof.Spec.lean ====
/-
  Two clouds of 16384 points in three dimensions, as [16384, 3] arrays of extended reals, and the two directed
  nearest-neighbour distances between them.

  The clamped squared distance between point n of the first cloud and point m of the second is written twice:
  as a sum of squared coordinate differences, taken coordinate by coordinate from zero (`sqdDiff`), and expanded
  as |x|² + |y|² − 2·⟨x, y⟩ with each of the three sums taken from zero (`sqdExpand`). On real (finite) clouds the two
  agree, because (a − b)² = a² + b² − 2ab in ℝ; on the extended reals they need not (∞ − ∞).

  The nearest distance from a point to the other cloud is the minimum over the other cloud, folded from the value
  of the word 0x7F800000 (`inf32`). That word is never evaluated: every minimum here starts from it, on both sides.
-/
import Idealize.ShloMosaic.PureOps.Ideal
import Idealize.ShloMosaic.Lib.ValueIdx

noncomputable section

namespace Chamfer

open Idealize.ShloMosaic Idealize.ShloMosaic.ValueIdx

/-- A cloud: 16384 points with 3 coordinates each. -/
abbrev Cloud : Type := (⟨2, ![16384, 3]⟩ : Shape).Idx → EReal

/-- The value every minimum is folded from. -/
abbrev inf32 : EReal := Ideal.ofBits .f32 0x7F800000#32
/-- The value every sum is taken from, and the clamp. -/
abbrev zero32 : EReal := Ideal.ofBits .f32 0x00000000#32
/-- The factor of the cross term. -/
abbrev two32 : EReal := Ideal.ofBits .f32 0x40000000#32

/-- Coordinate k's squared difference between point n of x and point m of y. -/
def dsq (x y : Cloud) (n m : Fin 16384) (k : Fin 3) : EReal :=
  (x (ix2 n k) - y (ix2 m k)) * (x (ix2 n k) - y (ix2 m k))

/-- The clamped squared distance as a sum of squared differences, coordinate 0, 1, 2 added in turn to zero. -/
def sqdDiff (x y : Cloud) (n m : Fin 16384) : EReal :=
  max (((zero32 + dsq x y n m 0) + dsq x y n m 1) + dsq x y n m 2) zero32

/-- The clamped squared distance expanded: |xₙ|² + |yₘ|² − 2·⟨xₙ, yₘ⟩. -/
def sqdExpand (x y : Cloud) (n m : Fin 16384) : EReal :=
  max (((zero32 + ∑ k : Fin 3, x (ix2 n k) * x (ix2 n k)) + (zero32 + ∑ k : Fin 3, y (ix2 m k) * y (ix2 m k)))
        - two32 * ∑ k : Fin 3, x (ix2 n k) * y (ix2 m k)) zero32

/-- Every entry of the cloud is a real number. -/
def IsReal (x : Cloud) : Prop := ∀ i, ∃ r : ℝ, x i = (r : EReal)

/-- Point n's distance to the nearest point of the other cloud, for a table D of pairwise distances. -/
def nearRow (D : Fin 16384 → Fin 16384 → EReal) (n : Fin 16384) : EReal :=
  Finset.univ.fold min inf32 (fun m => D n m)

/-- Point m of the second cloud's distance to the nearest point of the first. -/
def nearCol (D : Fin 16384 → Fin 16384 → EReal) (m : Fin 16384) : EReal :=
  Finset.univ.fold min inf32 (fun n => D n m)

end Chamfer

end
-- ==== Proof.LibRowOps.lean ====
/-
  Rows of a matrix, read at an index given by coordinates.

  A row-wise normalisation (a softmax, a layer norm) reduces each row of an [a, b] matrix to one number, keeps it as
  a column [a, 1], and broadcasts the column back over the row. Read at (p, c) each of these steps looks at one
  element of its operand, or at the b elements of row p:
  • the views [a, b] ↔ [a, 1, b] and [a] → [a, 1] move no element (the row-major position is unchanged because the
    inserted axis has extent one);
  • a column [a, 1] broadcast to [a, b] reads, at (p, c), the column's entry p;
  • a reduction over axis 1 reads, at p, the b entries (p, 0) … (p, b − 1): their sum, or their maximum folded from the
    initial value.
  The second part is the order fact a row maximum needs: folding max from an initial value gives a result at
  least that value, so taking the maximum with the initial value once more changes nothing.
-/
import Idealize.ShloMosaic.Lib.ValueLayout
import Idealize.ShloMosaic.Lib.ValueIdx
import Idealize.ShloMosaic.PureOps.Ideal.Laws

noncomputable section

namespace RowOps

open Idealize.ShloMosaic Idealize.ShloMosaic.ValueIdx

variable {α : Type}

/-! ## Views that insert or drop a unit axis in the middle or at the end -/

/-- An `[a, b]` array viewed as `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array viewed as `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array viewed as the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## A column broadcast over its rows -/

/-- An `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows -/

/-- Over result index `p` of a reduction of `[a, b]` along axis 1, the source index with `k` inserted is `(p, k)`. -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

variable {φ : FTy}

/-- The sum along a row, at the ideal values: entry `p` is the sum of the row's `b` entries. -/
theorem multiReduction_add_row {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) := by
  rw [Ideal.multiReduction_add_single]
  exact Finset.sum_congr rfl fun k _ => congrArg v (lift_row h p k)

/-- The maximum along a row, at the ideal values: entry `p` is `max` folded from the accumulator's value over the
    row's `b` entries. -/
theorem multiReduction_max_row {a b : ℕ} (v : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (Finset.univ.fold max _) (funext fun k => congrArg v (lift_row h p k))

/-- The host's one-operand reduction with a `max` body along a row: the same fold, from the initial value's element. -/
theorem hostReduce_max_row {a b : ℕ} {u : Shape} (v : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf v init h' hu (ix1 p)
      = (Finset.univ : Finset (Fin b)).fold max (init (Shape.Idx.first hu)) (fun k => v (ix2 p k)) := by
  rw [Host.reduce_eq_fold_single FloatOps.maximumf v init h' h hu]
  exact congrArg (Finset.univ.fold max _) (funext fun k => congrArg v (lift_row h p k))

/-! ## The maximum with the initial value, once more -/

/-- A fold of `max` from `c` is at least `c`, so its maximum with `c` is the fold itself. -/
theorem max_fold_max_self {ι β : Type*} [LinearOrder β] (s : Finset ι) (c : β) (f : ι → β) :
    max c (s.fold max c f) = s.fold max c f :=
  max_eq_right ((Finset.le_fold_max c).mpr (Or.inl le_rfl))

end RowOps

end
-- ==== Proof.LibMinOps.lean ====
/-
  Minima along the rows and along the columns of a matrix, read at an index given by coordinates.

  A reduction of an [a, b] matrix with `min` over axis 1 reads, at p, the b entries of row p; over axis 0 it reads,
  at c, the a entries of column c. In both cases the result is `min` folded from the initial value over those entries,
  in any order (min commutes and associates on the extended reals). Beside them, the views that drop or insert unit
  axes around a row or a column: they move no element, since the row-major position is unchanged.
-/
import Idealize.ShloMosaic.Lib.ValueLayout
import Idealize.ShloMosaic.Lib.ValueIdx
import Idealize.ShloMosaic.PureOps.Ideal.Laws

noncomputable section

namespace MinOps

open Idealize.ShloMosaic Idealize.ShloMosaic.ValueIdx

variable {α : Type}

/-! ## Views around a column and around a row -/

/-- A column `[a, 1]` viewed as `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A row `[1, b]` viewed as `[1, 1, b]` reads, at `(u, v, j)`, the operand at `(0, j)`. -/
theorem shapeCast_1b_11b_apply {b : ℕ} (x : (⟨2, ![1, b]⟩ : Shape).Idx → α)
    (h : (⟨2, ![1, b]⟩ : Shape).ShapeCasts ⟨3, ![1, 1, b]⟩) (u v : Fin 1) (j : Fin b) :
    shapeCast ⟨3, ![1, 1, b]⟩ x h (ix3 u v j) = x (ix2 (0 : Fin 1) j) :=
  shapeCast_apply x h _ _ (by
    have hu : u.val = 0 := by omega
    have hv : v.val = 0 := by omega
    rw [Shape.rowMajor_val_three, Shape.rowMajor_val_two]
    show 0 * b + j.val = (u.val * 1 + v.val) * b + j.val
    rw [hu, hv, Nat.zero_mul, Nat.zero_add])

/-! ## The source index of a reduction along one axis of a matrix -/

/-- Over result index `p` of a reduction of `[a, b]` along axis 1, the source index with `k` inserted is `(p, k)`. -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- Over result index `c` of a reduction of `[a, b]` along axis 0, the source index with `k` inserted is `(k, c)`. -/
theorem lift_col {a b : ℕ} (h : (⟨2, ![a, b]⟩ : Shape).Reduces [0] ⟨1, ![b]⟩) (c : Fin b) (k : Fin a) :
    h.lift (ix1 c) k = ix2 k c :=
  funext fun d => Fin.ext (by match d with | ⟨0, _⟩ => rfl | ⟨1, _⟩ => rfl)

/-! ## Minima -/

variable {φ : FTy}

/-- A `min` reduction over one axis, at the ideal values: `min` folded from the accumulator's value over that axis's
    coordinates. -/
theorem multiReduction_min_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- The minimum along a row: entry `p` is `min` folded over the row's `b` entries. -/
theorem multiReduction_min_row {a b : ℕ} (v : FVec Ideal ⟨2, ![a, b]⟩ φ) (acc : BitVec φ.bits)
    (h : (⟨2, ![a, b]⟩ : Shape).Reduces [1] ⟨1, ![a]⟩) (hφ : FKind.Formats φ)
    (hacc : acc = FKind.minimumf.neutral φ hφ) (p : Fin a) :
    multiReduction .minimumf [1] ⟨1, ![a]⟩ v acc h hφ hacc (ix1 p)
      = (Finset.univ : Finset (Fin b)).fold min (Ideal.ofBits φ acc) (fun k => v (ix2 p k)) := by
  rw [multiReduction_min_single]
  exact congrArg (Finset.univ.fold min _) (funext fun k => congrArg v (lift_row h p k))

/-- The minimum along a column: entry `c` is `min` folded over the column's `a` entries. -/
theorem multiReduction_min_col {a b : ℕ} (v : FVec Ideal ⟨2, ![a, b]⟩ φ) (acc : BitVec φ.bits)
    (h : (⟨2, ![a, b]⟩ : Shape).Reduces [0] ⟨1, ![b]⟩) (hφ : FKind.Formats φ)
    (hacc : acc = FKind.minimumf.neutral φ hφ) (c : Fin b) :
    multiReduction .minimumf [0] ⟨1, ![b]⟩ v acc h hφ hacc (ix1 c)
      = (Finset.univ : Finset (Fin a)).fold min (Ideal.ofBits φ acc) (fun k => v (ix2 k c)) := by
  rw [multiReduction_min_single]
  exact congrArg (Finset.univ.fold min _) (funext fun k => congrArg v (lift_col h c k))

/-- A one-operand reduction with a `min` body along the columns: the same fold, from the initial value's element. -/
theorem hostReduce_min_col {a b : ℕ} {u : Shape} (v : FVec Ideal ⟨2, ![a, b]⟩ φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (c : Fin b) :
    Host.reduce FloatOps.minimumf v init h' hu (ix1 c)
      = (Finset.univ : Finset (Fin a)).fold min (init (Shape.Idx.first hu)) (fun k => v (ix2 k c)) := by
  rw [Host.reduce_eq_fold_single FloatOps.minimumf v init h' h hu]
  exact congrArg (Finset.univ.fold min _) (funext fun k => congrArg v (lift_col h c k))

end MinOps

end
-- ==== Proof.Payload.lean ====
/-
  The arithmetic of one grid point, read at an index.

  A grid point sees a block q of 2048 points of the first cloud (a [2048, 3] array) and a block ct of 1024 points of
  the second, transposed (a [3, 1024] array). From them it forms the 2048 × 1024 tile of clamped squared distances
  `tile q ct r c` = max(((0 + (q r 0 − ct 0 c)²) + (q r 1 − ct 1 c)²) + (q r 2 − ct 2 c)², 0); the running row
  minimum it keeps is min(previous, min over c of the tile's row r), and the column minimum it writes is the min over
  r of the tile's column c. Every minimum is folded from the value of the word 0x7F800000.
-/
import proofs.«102126_j82575041233285_2_alg».proof.Proof.Spec
import proofs.«102126_j82575041233285_2_alg».proof.Proof.LibRowOps
import proofs.«102126_j82575041233285_2_alg».proof.Proof.LibMinOps
import proofs.«102126_j82575041233285_2_alg».proof.Proof.Gen.KernelIdeal.Skeleton
import Idealize.ShloMosaic.Lib.Pipeline.Value

noncomputable section

namespace Chamfer.Kernel

open Idealize.ShloMosaic Idealize.ShloMosaic.ValueIdx Cert.KernelIdeal Cert.KernelIdeal.Gen

/-- Coordinate k's squared difference between row r of the block q and column c of the transposed block ct. -/
def tsq (q : Vec Ideal S2048x3 .f32) (ct : Vec Ideal S3x1024 .f32) (r : Fin 2048) (c : Fin 1024) (k : Fin 3) : EReal :=
  (q (ix2 r k) - ct (ix2 k c)) * (q (ix2 r k) - ct (ix2 k c))

/-- The tile of clamped squared distances. -/
def tile (q : Vec Ideal S2048x3 .f32) (ct : Vec Ideal S3x1024 .f32) (r : Fin 2048) (c : Fin 1024) : EReal :=
  max (((zero32 + tsq q ct r c 0) + tsq q ct r c 1) + tsq q ct r c 2) zero32

/-- Column k of the block q, kept as a [2048, 1] array, read at (r, 0). -/
theorem qcol_apply (k : Fin 3) (q : Vec Ideal S2048x3 .f32) (h : S2048x3.Slices ![0, k.val] S2048x1) (r : Fin 2048)
    (u : Fin 1) : extractStridedSlice S2048x1 ![0, k.val] q h (ix2 r u) = q (ix2 r k) :=
  slice2_axis1_apply k.val q h r u k (by have := u.isLt; omega)

/-- Row k of the transposed block ct, kept as a [1, 1024] array, read at (0, c). -/
theorem ctrow_apply (k : Fin 3) (ct : Vec Ideal S3x1024 .f32) (h : S3x1024.Slices ![k.val, 0] S1x1024) (u : Fin 1)
    (c : Fin 1024) : extractStridedSlice S1x1024 ![k.val, 0] ct h (ix2 u c) = ct (ix2 k c) :=
  slice2_axis0_apply k.val ct h u c k (by have := u.isLt; omega)

/-- The column broadcast along the rows minus the row broadcast down the columns, squared: coordinate k's term. -/
theorem sq_apply (k : Fin 3) (q : Vec Ideal S2048x3 .f32) (ct : Vec Ideal S3x1024 .f32)
    (h1 : S2048x3.Slices ![0, k.val] S2048x1) (h2 : S3x1024.Slices ![k.val, 0] S1x1024)
    (hb1 : S2048x1.Broadcasts S2048x1024) (hb2 : S1x1024.Broadcasts S2048x1024) (r : Fin 2048) (c : Fin 1024) :
    (mulf (subf (broadcastTo S2048x1024 (extractStridedSlice S2048x1 ![0, k.val] q h1) hb1)
                (broadcastTo S2048x1024 (extractStridedSlice S1x1024 ![k.val, 0] ct h2) hb2))
          (subf (broadcastTo S2048x1024 (extractStridedSlice S2048x1 ![0, k.val] q h1) hb1)
                (broadcastTo S2048x1024 (extractStridedSlice S1x1024 ![k.val, 0] ct h2) hb2)) : FVec Ideal S2048x1024 .f32)
      (ix2 r c) = tsq q ct r c k := by
  unfold tsq
  rw [mulf_apply, subf_apply, RowOps.broadcastTo_a1_ab_apply, broadcastTo_1b_ab_apply, qcol_apply, ctrow_apply]

/-- The tile's entry (r, c). -/
theorem pay3_apply (q : Vec Ideal S2048x3 .f32) (ct : Vec Ideal S3x1024 .f32) (r : Fin 2048) (c : Fin 1024) :
    k0_pay3 (F := Ideal) q ct (ix2 r c) = tile q ct r c := by
  unfold k0_pay3 tile
  simp only [shapeCast_self]
  rw [maximumf_apply, addf_apply, addf_apply, addf_apply]
  exact congrArg₂ max
    (congrArg₂ (· + ·) (congrArg₂ (· + ·) (congrArg₂ (· + ·) rfl (sq_apply 0 q ct _ _ _ _ r c))
      (sq_apply 1 q ct _ _ _ _ r c)) (sq_apply 2 q ct _ _ _ _ r c)) rfl

/-- The running row minimum's new value at row r: the previous value, or the least entry of the tile's row r. -/
theorem pay4_apply (q : Vec Ideal S2048x3 .f32) (ct : Vec Ideal S3x1024 .f32) (prev : Vec Ideal S2048x1 .f32)
    (r : Fin 2048) (u : Fin 1) :
    k0_pay4 (F := Ideal) q ct prev (ix2 r u)
      = min (prev (ix2 r u)) (Finset.univ.fold min inf32 (fun c : Fin 1024 => tile q ct r c)) := by
  unfold k0_pay4
  simp only [shapeCast_self]
  rw [minimumf_apply, RowOps.shapeCast_a_a1_apply]
  refine congrArg (min (prev (ix2 r u))) ?_
  refine (MinOps.multiReduction_min_row (φ := .f32) (k0_pay3 (F := Ideal) q ct) _ _ _ _ r).trans ?_
  exact congrArg (Finset.univ.fold min inf32) (funext fun c => pay3_apply q ct r c)

/-- The column minimum the point writes, at column c: the least entry of the tile's column c. -/
theorem pay1_pay5_apply (q : Vec Ideal S2048x3 .f32) (ct : Vec Ideal S3x1024 .f32) (u v : Fin 1) (c : Fin 1024) :
    k0_pay1 (F := Ideal) (k0_pay5 (F := Ideal) q ct) (ix3 u v c)
      = Finset.univ.fold min inf32 (fun r : Fin 2048 => tile q ct r c) := by
  unfold k0_pay1 k0_pay5
  rw [MinOps.shapeCast_1b_11b_apply, shapeCast_a_1a_apply]
  refine (MinOps.multiReduction_min_col (φ := .f32) (k0_pay3 (F := Ideal) q ct) _ _ _ _ c).trans ?_
  exact congrArg (Finset.univ.fold min inf32) (funext fun r => pay3_apply q ct r c)

/-- The value the running minimum is reset to. -/
theorem pay2_apply (r : Fin 2048) (u : Fin 1) : k0_pay2 (F := Ideal) (ix2 r u) = inf32 := by
  unfold k0_pay2
  simp only [shapeCast_self]
  rfl

end Chamfer.Kernel

end
-- ==== Proof.Blocks.lean ====
/-
  Where a grid point looks.

  The 128 points are numbered row by row over an 8 × 16 grid: point t is tile row i = t / 16, tile column j = t % 16.
  It reads rows 2048·i … 2048·i + 2047 of the first cloud, and columns 1024·j … 1024·j + 1023 of the transposed second
  cloud — that is, points 1024·j … of the second cloud. So the tile it forms is the block (i, j) of the table of
  clamped squared distances between the two clouds.
-/
import proofs.«102126_j82575041233285_2_alg».proof.Proof.Payload
import proofs.«102126_j82575041233285_2_alg».proof.Proof.Gen.KernelIdeal.Frame
import Idealize.ShloMosaic.Lib.Pipeline.Value
import Idealize.ShloMosaic.Lib.StableHlo.Run
import Idealize.ShloMosaic.Lib.ValueLayout

noncomputable section

namespace Chamfer.Kernel

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The first cloud, as core c's memory holds it at launch. -/
abbrev xs (c : Dev nD) : Cloud := m ((c.tc : Thread nD τ).loc main_arg0)
/-- The second cloud. -/
abbrev ys (c : Dev nD) : Cloud := m ((c.tc : Thread nD τ).loc main_arg1)

theorem N128 : cfg0.N = 128 := N_0

/-- Point t's tile row. -/
def ti (t : Fin cfg0.N) : Fin 8 := ⟨t.val / 16, by have := lt_of_lt_of_eq t.isLt N128; omega⟩
/-- Point t's tile column. -/
def tj (t : Fin cfg0.N) : Fin 16 := ⟨t.val % 16, Nat.mod_lt _ (by decide)⟩
/-- Row r of tile row i, as a point of the first cloud. -/
def rowIdx (i : Fin 8) (r : Fin 2048) : Fin 16384 := ⟨i.val * 2048 + r.val, by have := i.isLt; have := r.isLt; omega⟩
/-- Column cc of tile column j, as a point of the second cloud. -/
def colIdx (j : Fin 16) (cc : Fin 1024) : Fin 16384 := ⟨j.val * 1024 + cc.val, by have := j.isLt; have := cc.isLt; omega⟩

/-- The block index maps over the grid, in closed form. -/
theorem index0 : ∀ t : Fin cfg0.N, win0_0.index t 0 = t.val / 16 ∧ win0_0.index t 1 = 0 :=
  (by decide +kernel : ∀ t : Fin grid0.N, win0_0.index t 0 = t.val / 16 ∧ win0_0.index t 1 = 0)
theorem index1 : ∀ t : Fin cfg0.N, win0_1.index t 0 = 0 ∧ win0_1.index t 1 = t.val % 16 :=
  (by decide +kernel : ∀ t : Fin grid0.N, win0_1.index t 0 = 0 ∧ win0_1.index t 1 = t.val % 16)
theorem index2 : ∀ t : Fin cfg0.N, win0_2.index t 0 = t.val / 16 ∧ win0_2.index t 1 = 0 :=
  (by decide +kernel : ∀ t : Fin grid0.N, win0_2.index t 0 = t.val / 16 ∧ win0_2.index t 1 = 0)
theorem index3 : ∀ t : Fin cfg0.N, win0_3.index t 0 = t.val / 16 ∧ win0_3.index t 1 = 0 ∧ win0_3.index t 2 = t.val % 16 :=
  (by decide +kernel : ∀ t : Fin grid0.N, win0_3.index t 0 = t.val / 16 ∧ win0_3.index t 1 = 0 ∧ win0_3.index t 2 = t.val % 16)

/-- The first window's block at point t is rows 2048·i … of the first cloud. -/
theorem qblk_apply (c : Dev nD) (t : Fin cfg0.N) (r : Fin 2048) (k : Fin 3) :
    (iblk m c 0 t : Vec Ideal S2048x3 .f32) (ix2 r k) = xs m c (ix2 (rowIdx (ti t) r) k) := by
  have hi := index0 t
  unfold iblk
  rw [View.read_apply]
  show V m c main_arg0 _ = m ((c.tc : Thread nD τ).loc main_arg0) _
  rw [V_main_arg0]
  congr 1
  funext a
  apply Fin.ext
  match a with
  | ⟨0, _⟩ => show win0_0.index t 0 * 2048 + 1 * r.val = t.val / 16 * 2048 + r.val; rw [hi.1]; omega
  | ⟨1, _⟩ => show win0_0.index t 1 * 3 + 1 * k.val = k.val; rw [hi.2]; omega

/-- The array the second window stages is the second cloud transposed. -/
theorem V_transposed (c : Dev nD) :
    (V m c main_v0 : S3x16384.Idx → EReal) = transpose S3x16384 [1, 0] (ys m c) transposes_S16384x3_S3x16384_1_0 := by
  show StableHlo.after hostOps0 (fun b => m (c, b)) (Proc.devRef .tc main_v0) = _
  after_results

/-- The second window's block at point t is columns 1024·j … of the transposed second cloud. -/
theorem cblk_apply (c : Dev nD) (t : Fin cfg0.N) (k : Fin 3) (cc : Fin 1024) :
    (iblk m c 1 t : Vec Ideal S3x1024 .f32) (ix2 k cc) = ys m c (ix2 (colIdx (tj t) cc) k) := by
  have hi := index1 t
  unfold iblk
  rw [View.read_apply]
  show V m c main_v0 _ = _
  rw [V_transposed m c]
  refine Eq.trans (congrArg _ ?_) (transpose_ix2_apply (ys m c) transposes_S16384x3_S3x16384_1_0 k (colIdx (tj t) cc))
  funext a
  apply Fin.ext
  match a with
  | ⟨0, _⟩ => show win0_1.index t 0 * 3 + 1 * k.val = k.val; rw [hi.1]; omega
  | ⟨1, _⟩ => show win0_1.index t 1 * 1024 + 1 * cc.val = t.val % 16 * 1024 + cc.val; rw [hi.2]; omega

/-- The tile a point forms is block (i, j) of the table of clamped squared distances. -/
theorem tile_at (c : Dev nD) (t : Fin cfg0.N) (r : Fin 2048) (cc : Fin 1024) :
    tile (iblk m c 0 t) (iblk m c 1 t) r cc = sqdDiff (xs m c) (ys m c) (rowIdx (ti t) r) (colIdx (tj t) cc) := by
  unfold tile sqdDiff tsq dsq
  rw [qblk_apply m c t r 0, qblk_apply m c t r 1, qblk_apply m c t r 2,
    cblk_apply m c t 0 cc, cblk_apply m c t 1 cc, cblk_apply m c t 2 cc]

end Chamfer.Kernel

end
-- ==== Proof.Pieces.lean ====
/-
  What each case of a grid point leaves behind, as a value.

  At a point the body resets the running row minimum when the point opens a row of tiles (case A: the reset value is
  stored, read back, and combined with the tile's row minima), or combines what the point before left with the tile's
  row minima (cases B and C); it always writes the tile's column minima; and at the point that closes a row of tiles
  (case C) it copies the running row minimum out. Each store covers its whole buffer, so what a buffer ends with is
  the last store's value, the loads reading whole buffers.
-/
import proofs.«102126_j82575041233285_2_alg».proof.Proof.Gen.KernelIdeal.Frame
import Idealize.ShloMosaic.Lib.Pipeline.Value
import Idealize.ShloMosaic.Lib.Tactic

noncomputable section

namespace Chamfer.Kernel

open Idealize.ShloMosaic Idealize.ShloMosaic.TcCoe Idealize.SL.Sem Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Case A: the running minimum is reset, then combined with the tile's row minima. -/
theorem carry_A (c : Dev nD) (i : grid0.Coords) (a2 : Memref sig .tc .vmem S2048x3 .f32) (h2 : a2.IsWhole) (a3 : Memref sig .tc .vmem S3x1024 .f32) (h3 : a3.IsWhole) (a4 : Memref sig .tc .vmem S2048x1 .f32) (h4 : a4.IsWhole) (a5 : Memref sig .tc .vmem S1x1x1024 .f32) (h5 : a5.IsWhole) (a6 : Memref sig .tc .vmem S2048x1 .f32) (h6 : a6.IsWhole) (hc0 : cond0_0 i) (hc1 : ¬cond0_1 i)
    (x0 : Vec F S2048x3 .f32) (x1 : Vec F S3x1024 .f32) :
    sout0_A_0 c i a2 h2 a3 h3 a4 h4 a5 h5 a6 h6 hc0 hc1 x0 x1 = k0_pay4 x0 x1 (k0_pay2 (F := F)) := by
  unfold sout0_A_0
  rw [View.read_writes_eq_canon _ _ _ (scover0_A_0 c i a2 h2 a3 h3 a4 h4 a5 h5 a6 h6 hc0 hc1 x0 x1)]
  unfold kernelRun0_A
  dsimp only
  sl_unfold_words
  rw [View.canon_cons_unit_zero (S := S2048x1) hz2]
  simp only [View.readAt_eq_ld, h2.read_unread, h3.read_unread, h6.read_unread, View.ld_unit_zero (S := S2048x3) hz2, View.ld_unit_zero (S := S3x1024) hz2, View.ld_unit_zero (S := S2048x1) hz2, View.readCov_unit_zero (S := S2048x1) _ hz2]

/-- Case B: the running minimum the point before left, combined with the tile's row minima. -/
theorem carry_B (c : Dev nD) (i : grid0.Coords) (a2 : Memref sig .tc .vmem S2048x3 .f32) (h2 : a2.IsWhole) (a3 : Memref sig .tc .vmem S3x1024 .f32) (h3 : a3.IsWhole) (a4 : Memref sig .tc .vmem S2048x1 .f32) (h4 : a4.IsWhole) (a5 : Memref sig .tc .vmem S1x1x1024 .f32) (h5 : a5.IsWhole) (a6 : Memref sig .tc .vmem S2048x1 .f32) (h6 : a6.IsWhole) (hc0 : ¬cond0_0 i) (hc1 : ¬cond0_1 i)
    (x0 : Vec F S2048x3 .f32) (x1 : Vec F S3x1024 .f32) (xs0 : Vec F S2048x1 .f32) :
    sout0_B_0 c i a2 h2 a3 h3 a4 h4 a5 h5 a6 h6 hc0 hc1 x0 x1 xs0 = k0_pay4 x0 x1 xs0 := by
  unfold sout0_B_0
  rw [View.read_writes_eq_canon _ _ _ (scover0_B_0 c i a2 h2 a3 h3 a4 h4 a5 h5 a6 h6 hc0 hc1 x0 x1 xs0)]
  unfold kernelRun0_B
  dsimp only
  sl_unfold_words
  rw [View.canon_unit_zero hz2]
  simp only [View.readAt_eq_ld, h2.read_unread, h3.read_unread, h6.read_unread, View.ld_unit_zero (S := S2048x3) hz2, View.ld_unit_zero (S := S3x1024) hz2, View.ld_unit_zero (S := S2048x1) hz2, View.readCov_unit_zero (S := S2048x1) _ hz2]

/-- Case C: the same as case B. -/
theorem carry_C (c : Dev nD) (i : grid0.Coords) (a2 : Memref sig .tc .vmem S2048x3 .f32) (h2 : a2.IsWhole) (a3 : Memref sig .tc .vmem S3x1024 .f32) (h3 : a3.IsWhole) (a4 : Memref sig .tc .vmem S2048x1 .f32) (h4 : a4.IsWhole) (a5 : Memref sig .tc .vmem S1x1x1024 .f32) (h5 : a5.IsWhole) (a6 : Memref sig .tc .vmem S2048x1 .f32) (h6 : a6.IsWhole) (hc0 : ¬cond0_0 i) (hc1 : cond0_1 i)
    (x0 : Vec F S2048x3 .f32) (x1 : Vec F S3x1024 .f32) (xs0 : Vec F S2048x1 .f32) :
    sout0_C_0 c i a2 h2 a3 h3 a4 h4 a5 h5 a6 h6 hc0 hc1 x0 x1 xs0 = k0_pay4 x0 x1 xs0 := by
  unfold sout0_C_0
  rw [View.read_writes_eq_canon _ _ _ (scover0_C_0 c i a2 h2 a3 h3 a4 h4 a5 h5 a6 h6 hc0 hc1 x0 x1 xs0)]
  unfold kernelRun0_C
  dsimp only
  sl_unfold_words
  rw [View.canon_unit_zero hz2]
  simp only [View.readAt_eq_ld, h2.read_unread, h3.read_unread, h6.read_unread, View.ld_unit_zero (S := S2048x3) hz2, View.ld_unit_zero (S := S3x1024) hz2, View.ld_unit_zero (S := S2048x1) hz2, View.readCov_unit_zero (S := S2048x1) _ hz2]

/-- Case C copies the running minimum, as just updated, to the row output's block. -/
theorem rowOut_C (c : Dev nD) (i : grid0.Coords) (a2 : Memref sig .tc .vmem S2048x3 .f32) (h2 : a2.IsWhole) (a3 : Memref sig .tc .vmem S3x1024 .f32) (h3 : a3.IsWhole) (a4 : Memref sig .tc .vmem S2048x1 .f32) (h4 : a4.IsWhole) (a5 : Memref sig .tc .vmem S1x1x1024 .f32) (h5 : a5.IsWhole) (a6 : Memref sig .tc .vmem S2048x1 .f32) (h6 : a6.IsWhole) (hc0 : ¬cond0_0 i) (hc1 : cond0_1 i)
    (x0 : Vec F S2048x3 .f32) (x1 : Vec F S3x1024 .f32) (xs0 : Vec F S2048x1 .f32) :
    out0_C_2 c i a2 h2 a3 h3 a4 h4 a5 h5 a6 h6 hc0 hc1 x0 x1 xs0 = k0_pay4 x0 x1 xs0 := by
  unfold out0_C_2
  rw [View.read_writes_eq_canon _ _ _ (cover0_C_2 c i a2 h2 a3 h3 a4 h4 a5 h5 a6 h6 hc0 hc1 x0 x1 xs0)]
  unfold kernelRun0_C
  dsimp only
  sl_unfold_words
  rw [View.canon_unit_zero hz2]
  simp only [View.readAt_eq_ld, h2.read_unread, h3.read_unread, h6.read_unread, View.ld_unit_zero (S := S2048x3) hz2, View.ld_unit_zero (S := S3x1024) hz2, View.ld_unit_zero (S := S2048x1) hz2, View.readCov_unit_zero (S := S2048x1) _ hz2]

/-- Case A writes the tile's column minima. -/
theorem colOut_A (c : Dev nD) (i : grid0.Coords) (a2 : Memref sig .tc .vmem S2048x3 .f32) (h2 : a2.IsWhole) (a3 : Memref sig .tc .vmem S3x1024 .f32) (h3 : a3.IsWhole) (a4 : Memref sig .tc .vmem S2048x1 .f32) (h4 : a4.IsWhole) (a5 : Memref sig .tc .vmem S1x1x1024 .f32) (h5 : a5.IsWhole) (a6 : Memref sig .tc .vmem S2048x1 .f32) (h6 : a6.IsWhole) (hc0 : cond0_0 i) (hc1 : ¬cond0_1 i)
    (x0 : Vec F S2048x3 .f32) (x1 : Vec F S3x1024 .f32) :
    out0_A_3 c i a2 h2 a3 h3 a4 h4 a5 h5 a6 h6 hc0 hc1 x0 x1 = k0_pay1 (k0_pay5 x0 x1) := by
  unfold out0_A_3
  rw [View.read_writes_eq_canon _ _ _ (cover0_A_3 c i a2 h2 a3 h3 a4 h4 a5 h5 a6 h6 hc0 hc1 x0 x1)]
  unfold kernelRun0_A
  dsimp only
  sl_unfold_words
  rw [View.canon_unit_zero hz3]
  simp only [View.readAt_eq_ld, h2.read_unread, h3.read_unread, h6.read_unread, View.ld_unit_zero (S := S2048x3) hz2, View.ld_unit_zero (S := S3x1024) hz2, View.ld_unit_zero (S := S2048x1) hz2, View.readCov_unit_zero (S := S2048x1) _ hz2]

/-- Case B writes the tile's column minima. -/
theorem colOut_B (c : Dev nD) (i : grid0.Coords) (a2 : Memref sig .tc .vmem S2048x3 .f32) (h2 : a2.IsWhole) (a3 : Memref sig .tc .vmem S3x1024 .f32) (h3 : a3.IsWhole) (a4 : Memref sig .tc .vmem S2048x1 .f32) (h4 : a4.IsWhole) (a5 : Memref sig .tc .vmem S1x1x1024 .f32) (h5 : a5.IsWhole) (a6 : Memref sig .tc .vmem S2048x1 .f32) (h6 : a6.IsWhole) (hc0 : ¬cond0_0 i) (hc1 : ¬cond0_1 i)
    (x0 : Vec F S2048x3 .f32) (x1 : Vec F S3x1024 .f32) (xs0 : Vec F S2048x1 .f32) :
    out0_B_3 c i a2 h2 a3 h3 a4 h4 a5 h5 a6 h6 hc0 hc1 x0 x1 xs0 = k0_pay1 (k0_pay5 x0 x1) := by
  unfold out0_B_3
  rw [View.read_writes_eq_canon _ _ _ (cover0_B_3 c i a2 h2 a3 h3 a4 h4 a5 h5 a6 h6 hc0 hc1 x0 x1 xs0)]
  unfold kernelRun0_B
  dsimp only
  sl_unfold_words
  rw [View.canon_unit_zero hz3]
  simp only [View.readAt_eq_ld, h2.read_unread, h3.read_unread, h6.read_unread, View.ld_unit_zero (S := S2048x3) hz2, View.ld_unit_zero (S := S3x1024) hz2, View.ld_unit_zero (S := S2048x1) hz2, View.readCov_unit_zero (S := S2048x1) _ hz2]

/-- Case C writes the tile's column minima. -/
theorem colOut_C (c : Dev nD) (i : grid0.Coords) (a2 : Memref sig .tc .vmem S2048x3 .f32) (h2 : a2.IsWhole) (a3 : Memref sig .tc .vmem S3x1024 .f32) (h3 : a3.IsWhole) (a4 : Memref sig .tc .vmem S2048x1 .f32) (h4 : a4.IsWhole) (a5 : Memref sig .tc .vmem S1x1x1024 .f32) (h5 : a5.IsWhole) (a6 : Memref sig .tc .vmem S2048x1 .f32) (h6 : a6.IsWhole) (hc0 : ¬cond0_0 i) (hc1 : cond0_1 i)
    (x0 : Vec F S2048x3 .f32) (x1 : Vec F S3x1024 .f32) (xs0 : Vec F S2048x1 .f32) :
    out0_C_3 c i a2 h2 a3 h3 a4 h4 a5 h5 a6 h6 hc0 hc1 x0 x1 xs0 = k0_pay1 (k0_pay5 x0 x1) := by
  unfold out0_C_3
  rw [View.read_writes_eq_canon _ _ _ (cover0_C_3 c i a2 h2 a3 h3 a4 h4 a5 h5 a6 h6 hc0 hc1 x0 x1 xs0)]
  unfold kernelRun0_C
  dsimp only
  sl_unfold_words
  rw [View.canon_unit_zero hz3]
  simp only [View.readAt_eq_ld, h2.read_unread, h3.read_unread, h6.read_unread, View.ld_unit_zero (S := S2048x3) hz2, View.ld_unit_zero (S := S3x1024) hz2, View.ld_unit_zero (S := S2048x1) hz2, View.readCov_unit_zero (S := S2048x1) _ hz2]

end Chamfer.Kernel

end
-- ==== Proof.MinFold.lean ====
/-
  Minima folded over finite index sets, in any linear order, by their universal property: c ≤ fold min t f s
  exactly when c ≤ t and c ≤ f i for every i in s. Two consequences are used.

  • A minimum over the first b + w indices of Fin N is the minimum over the first b, and then the w indices
    b, …, b + w − 1: a running minimum taken block by block.
  • A minimum over i of the minima over r of f (g i r) is the minimum of f, when every index is some g i r:
    a minimum taken tile by tile.
-/
import Mathlib.Data.Finset.Fold
import Mathlib.Data.Fintype.Basic
import Mathlib.Order.Lattice

namespace Chamfer.MinFold

variable {α : Type*} [LinearOrder α]

/-- The minimum, folded from `t`, of f over the indices below b. -/
def minBelow {N : ℕ} (t : α) (f : Fin N → α) (b : ℕ) : α :=
  (Finset.univ.filter fun m : Fin N => m.val < b).fold min t f

/-- The lower bounds of `minBelow t f b`: those of t that are below f m for every index m under b. -/
theorem le_minBelow {N : ℕ} (t : α) (f : Fin N → α) (b : ℕ) (c : α) :
    c ≤ minBelow t f b ↔ c ≤ t ∧ ∀ m : Fin N, m.val < b → c ≤ f m := by
  simp only [minBelow, Finset.le_fold_min, Finset.mem_filter, Finset.mem_univ, true_and]

/-- The lower bounds of a minimum over a whole finite type. -/
theorem le_fold_univ {ι : Type*} [Fintype ι] (t : α) (f : ι → α) (c : α) :
    c ≤ Finset.univ.fold min t f ↔ c ≤ t ∧ ∀ i : ι, c ≤ f i := by
  simp only [Finset.le_fold_min, Finset.mem_univ, true_imp_iff]

/-- No index lies below 0, so only the starting value bounds the minimum. -/
theorem minBelow_zero {N : ℕ} (t : α) (f : Fin N → α) : minBelow t f 0 = t := by
  refine eq_of_forall_le_iff fun c => ?_
  rw [le_minBelow]
  exact ⟨fun h => h.1, fun h => ⟨h, fun m hm => absurd hm (Nat.not_lt_zero _)⟩⟩

/-- Every index of Fin N lies below b once N ≤ b. -/
theorem minBelow_of_le {N : ℕ} (t : α) (f : Fin N → α) (b : ℕ) (h : N ≤ b) :
    minBelow t f b = Finset.univ.fold min t f := by
  refine eq_of_forall_le_iff fun c => ?_
  rw [le_minBelow, le_fold_univ]
  exact ⟨fun hc => ⟨hc.1, fun m => hc.2 m (lt_of_lt_of_le m.isLt h)⟩,
    fun hc => ⟨hc.1, fun m _ => hc.2 m⟩⟩

/-- One more block: the w indices `blk k` sit at positions b + k. -/
theorem min_minBelow_block {N w : ℕ} (t : α) (f : Fin N → α) (b : ℕ) (blk : Fin w → Fin N)
    (hblk : ∀ k, (blk k).val = b + k.val) :
    min (minBelow t f b) (Finset.univ.fold min t (fun k : Fin w => f (blk k))) = minBelow t f (b + w) := by
  refine eq_of_forall_le_iff fun c => ?_
  rw [le_min_iff, le_minBelow, le_minBelow, le_fold_univ]
  constructor
  · -- an index under b + w is under b, or is the (m − b)-th index of the block
    rintro ⟨⟨hc, hlow⟩, _, hblock⟩
    refine ⟨hc, fun m hm => ?_⟩
    by_cases hmb : m.val < b
    · exact hlow m hmb
    · have hk : m.val - b < w := by omega
      have hm' : blk ⟨m.val - b, hk⟩ = m := by
        apply Fin.ext
        rw [hblk]
        show b + (m.val - b) = m.val
        omega
      rw [← hm']
      exact hblock _
  · -- an index under b is under b + w, and so is every index of the block
    rintro ⟨hc, hall⟩
    refine ⟨⟨hc, fun m hm => hall m (by omega)⟩, hc, fun k => hall (blk k) ?_⟩
    rw [hblk]
    have := k.isLt
    omega

/-- A minimum taken tile by tile is the minimum. -/
theorem fold_min_fold_min {ι κ ν : Type*} [Fintype ι] [Fintype κ] [Fintype ν] (t : α) (f : ν → α) (g : ι → κ → ν)
    (hg : ∀ n, ∃ i r, g i r = n) :
    Finset.univ.fold min t (fun i => Finset.univ.fold min t (fun r => f (g i r))) = Finset.univ.fold min t f := by
  refine eq_of_forall_le_iff fun c => ?_
  rw [le_fold_univ, le_fold_univ]
  constructor
  · -- every index n is some g i r, and c is below the r-th entry of tile i
    rintro ⟨hc, htile⟩
    refine ⟨hc, fun n => ?_⟩
    obtain ⟨i, r, rfl⟩ := hg n
    exact ((le_fold_univ t (fun r => f (g i r)) c).1 (htile i)).2 r
  · rintro ⟨hc, hall⟩
    exact ⟨hc, fun i => (le_fold_univ t (fun r => f (g i r)) c).2 ⟨hc, fun r => hall (g i r)⟩⟩

end Chamfer.MinFold
-- ==== Proof.Carry.lean ====
/-
  The running row minimum, point by point, and what each point writes.

  Fix a tile row i. Its sixteen points j = 0 … 15 visit the column blocks of the table from left to right. After point
  (i, j) the running minimum kept for row r holds the least of the table's row 2048·i + r over the columns below
  1024·(j + 1): at j = 0 it is reset to the starting value and combined with the first block, afterwards what the point
  before left is combined with block j. So after j = 15 it is the row's minimum over all 16384 columns, which that point
  copies out. Independently, every point writes, for each of its 1024 columns, the least of its tile's 2048 rows.
-/
import proofs.«102126_j82575041233285_2_alg».proof.Proof.Blocks
import proofs.«102126_j82575041233285_2_alg».proof.Proof.Pieces
import proofs.«102126_j82575041233285_2_alg».proof.Proof.MinFold

noncomputable section

namespace Chamfer.Kernel

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The table's row for row r of point t's tile row: the clamped squared distances from that point of the first cloud. -/
def rowf (c : Dev nD) (t : Fin cfg0.N) (r : Fin 2048) : Fin 16384 → EReal :=
  fun mm => sqdDiff (xs m c) (ys m c) (rowIdx (ti t) r) mm

/-- One more column block: the minimum over the columns below 1024·j, then block j, is the minimum below 1024·(j + 1). -/
theorem block_step (f : Fin 16384 → EReal) (j : ℕ) (blk : Fin 1024 → Fin 16384)
    (hblk : ∀ k, (blk k).val = j * 1024 + k.val) (prev : EReal) (hprev : prev = MinFold.minBelow inf32 f (j * 1024)) :
    min prev (Finset.univ.fold min inf32 (fun k => f (blk k))) = MinFold.minBelow inf32 f ((j + 1) * 1024) := by
  rw [hprev, MinFold.min_minBelow_block inf32 f (j * 1024) blk hblk, Nat.add_mul, Nat.one_mul]

/-- The tile's row r at point t, as the table's row restricted to column block j. -/
theorem tile_row (c : Dev nD) (t : Fin cfg0.N) (r : Fin 2048) :
    (fun cc : Fin 1024 => tile (iblk m c 0 t) (iblk m c 1 t) r cc) = fun cc => rowf m c t r (colIdx (tj t) cc) :=
  funext fun cc => tile_at m c t r cc

/-- What the update leaves at row r, from what it found there: one more column block. -/
theorem update_apply (c : Dev nD) (t : Fin cfg0.N) (prev : Vec Ideal S2048x1 .f32) (r : Fin 2048) (u : Fin 1)
    (hprev : prev (ix2 r u) = MinFold.minBelow inf32 (rowf m c t r) (t.val % 16 * 1024)) :
    k0_pay4 (F := Ideal) (iblk m c 0 t) (iblk m c 1 t) prev (ix2 r u)
      = MinFold.minBelow inf32 (rowf m c t r) ((t.val % 16 + 1) * 1024) := by
  refine (pay4_apply (iblk m c 0 t) (iblk m c 1 t) prev r u).trans ?_
  rw [tile_row m c t r]
  exact block_step (rowf m c t r) (t.val % 16) (colIdx (tj t)) (fun k => rfl) _ hprev

/-- At a point that opens a tile row, the running minimum is the minimum over the first column block. -/
theorem carry_first (c : Dev nD) (t : Fin cfg0.N) (h0 : t.val % 16 = 0) (r : Fin 2048) (u : Fin 1) :
    (outsAt0 m c t.val t.isLt).2.2 (ix2 r u) = MinFold.minBelow inf32 (rowf m c t r) ((t.val % 16 + 1) * 1024) := by
  have h1 : ¬t.val % 16 = 15 := by omega
  rw [outsAt0_A m c t h0 h1]
  dsimp only
  refine (congrFun (carry_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)) (ix2 r u)).trans ?_
  refine update_apply m c t (k0_pay2 (F := Ideal)) r u ?_
  rw [pay2_apply, h0, Nat.zero_mul, MinFold.minBelow_zero]

/-- At a later point of the tile row, from the running minimum the point before left. -/
theorem carry_next (c : Dev nD) (t : Fin cfg0.N) (h0 : ¬t.val % 16 = 0) (r : Fin 2048) (u : Fin 1)
    (hprev : (outsAt0 m c (t.val - 1) (Nat.lt_of_le_of_lt (Nat.sub_le _ _) t.isLt)).2.2 (ix2 r u) = MinFold.minBelow inf32 (rowf m c t r) (t.val % 16 * 1024)) :
    (outsAt0 m c t.val t.isLt).2.2 (ix2 r u) = MinFold.minBelow inf32 (rowf m c t r) ((t.val % 16 + 1) * 1024) := by
  by_cases h1 : t.val % 16 = 15
  · rw [outsAt0_C m c t h0 h1]
    dsimp only
    refine (congrFun (carry_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2) (ix2 r u)).trans ?_
    exact update_apply m c t _ r u hprev
  · rw [outsAt0_B m c t h0 h1]
    dsimp only
    refine (congrFun (carry_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2) (ix2 r u)).trans ?_
    exact update_apply m c t _ r u hprev

/-- THE RUNNING MINIMUM after point n: the table's row over the columns below 1024·(n % 16 + 1). -/
theorem carry_eq (c : Dev nD) : ∀ (n : ℕ) (hn : n < cfg0.N) (r : Fin 2048) (u : Fin 1),
    (outsAt0 m c n hn).2.2 (ix2 r u) = MinFold.minBelow inf32 (rowf m c ⟨n, hn⟩ r) ((n % 16 + 1) * 1024) := by
  intro n
  induction n with
  | zero => intro hn r u; exact carry_first m c ⟨0, hn⟩ rfl r u
  | succ n ih =>
    intro hn r u
    by_cases h0 : (n + 1) % 16 = 0
    · exact carry_first m c ⟨n + 1, hn⟩ h0 r u
    · refine carry_next m c ⟨n + 1, hn⟩ h0 r u ?_
      have e1 : ti ⟨n, Nat.lt_of_succ_lt hn⟩ = ti ⟨n + 1, hn⟩ := Fin.ext (by show n / 16 = (n + 1) / 16; omega)
      have e2 : n % 16 + 1 = (n + 1) % 16 := by omega
      show (outsAt0 m c n _).2.2 (ix2 r u) = _
      rw [ih (Nat.lt_of_succ_lt hn) r u]
      unfold rowf
      rw [e1, e2]

/-- The point that closes a tile row copies out the row's minimum over all columns. -/
theorem rowOut_eq (c : Dev nD) (t : Fin cfg0.N) (h1 : t.val % 16 = 15) (r : Fin 2048) (u : Fin 1) :
    (outsAt0 m c t.val t.isLt).1 (ix2 r u) = nearRow (sqdDiff (xs m c) (ys m c)) (rowIdx (ti t) r) := by
  have h0 : ¬t.val % 16 = 0 := by omega
  have hN : t.val < 128 := lt_of_lt_of_eq t.isLt N128
  rw [outsAt0_C m c t h0 h1]
  dsimp only
  refine (congrFun (rowOut_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2) (ix2 r u)).trans ?_
  refine (update_apply m c t _ r u ?_).trans ?_
  · have e1 : ti ⟨t.val - 1, Nat.lt_of_le_of_lt (Nat.sub_le _ _) t.isLt⟩ = ti t := Fin.ext (by show (t.val - 1) / 16 = t.val / 16; omega)
    have e2 : (t.val - 1) % 16 + 1 = t.val % 16 := by omega
    rw [carry_eq m c (t.val - 1) _ r u]
    unfold rowf
    rw [e1, e2]
  · rw [h1]
    exact MinFold.minBelow_of_le inf32 _ _ (by decide)

/-- Every point writes the column minima of its tile. -/
theorem colOut_eq (c : Dev nD) (t : Fin cfg0.N) (u v : Fin 1) (cc : Fin 1024) :
    (outsAt0 m c t.val t.isLt).2.1 (ix3 u v cc)
      = Finset.univ.fold min inf32 (fun r : Fin 2048 => sqdDiff (xs m c) (ys m c) (rowIdx (ti t) r) (colIdx (tj t) cc)) := by
  have key : k0_pay1 (F := Ideal) (k0_pay5 (F := Ideal) (iblk m c 0 t) (iblk m c 1 t)) (ix3 u v cc)
      = Finset.univ.fold min inf32 (fun r : Fin 2048 => sqdDiff (xs m c) (ys m c) (rowIdx (ti t) r) (colIdx (tj t) cc)) :=
    (pay1_pay5_apply (iblk m c 0 t) (iblk m c 1 t) u v cc).trans
      (congrArg (Finset.univ.fold min inf32) (funext fun r => tile_at m c t r cc))
  by_cases h0 : t.val % 16 = 0
  · have h1 : ¬t.val % 16 = 15 := by omega
    rw [outsAt0_A m c t h0 h1]
    dsimp only
    exact (congrFun (colOut_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)) (ix3 u v cc)).trans key
  · by_cases h1 : t.val % 16 = 15
    · rw [outsAt0_C m c t h0 h1]
      dsimp only
      exact (congrFun (colOut_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2) (ix3 u v cc)).trans key
    · rw [outsAt0_B m c t h0 h1]
      dsimp only
      exact (congrFun (colOut_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2) (ix3 u v cc)).trans key

end Chamfer.Kernel

end
-- ==== Proof.Final.lean ====
/-
  What the two output arrays hold after all 128 points.

  The row output is a [16384, 1] array written in blocks of 2048 rows, block i by the point that closes tile row i; it
  ends holding, at row n, the minimum of the table's row n. The column output is an [8, 1, 16384] array written in
  blocks of 1024 columns of one tile row, block (i, j) by point (i, j); it ends holding, at (i, 0, mm), the minimum of the
  table's column mm over the 2048 rows of tile row i. Every entry of either array lies in exactly the block named.
-/
import proofs.«102126_j82575041233285_2_alg».proof.Proof.Carry

-- reading a block of an array of 16384 rows through its rectangle recurses once per coordinate of the long axis
set_option maxRecDepth 16384

noncomputable section

namespace Chamfer.Kernel

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- The row output after the run: each point of the first cloud's distance to the nearest point of the second. -/
def rowMinArr (c : Dev nD) : S16384x1.Idx → EReal :=
  fun i => nearRow (sqdDiff (xs m c) (ys m c)) (i 0)

/-- The column output after the run: per tile row i, each point of the second cloud's distance to the nearest of the
    2048 points of the first cloud in that tile row. -/
def colMinArr (c : Dev nD) : S8x1x16384.Idx → EReal :=
  fun i => Finset.univ.fold min inf32 (fun r : Fin 2048 => sqdDiff (xs m c) (ys m c) (rowIdx (i 0) r) (i 2))

/-- What the closing point of a tile row leaves in the row output's block, as a function of the block's index. -/
theorem rowOut_fun (c : Dev nD) (t : Fin cfg0.N) (h1 : t.val % 16 = 15) :
    ((outsAt0 m c t.val t.isLt).1 : Vec Ideal S2048x1 .f32)
      = fun j => nearRow (sqdDiff (xs m c) (ys m c)) (rowIdx (ti t) (j 0)) := by
  funext j
  obtain ⟨r, u, rfl⟩ : ∃ (r : Fin 2048) (u : Fin 1), j = ix2 r u := ⟨j 0, j 1, eq_ix2 j⟩
  exact rowOut_eq m c t h1 r u

/-- What a point leaves in the column output's block, as a function of the block's index. -/
theorem colOut_fun (c : Dev nD) (t : Fin cfg0.N) :
    ((outsAt0 m c t.val t.isLt).2.1 : Vec Ideal S1x1x1024 .f32)
      = fun j => Finset.univ.fold min inf32
          (fun r : Fin 2048 => sqdDiff (xs m c) (ys m c) (rowIdx (ti t) r) (colIdx (tj t) (j 2))) := by
  funext j
  obtain ⟨u, v, cc, rfl⟩ : ∃ (u v : Fin 1) (cc : Fin 1024), j = ix3 u v cc := ⟨j 0, j 1, j 2, eq_ix3 j⟩
  exact colOut_eq m c t u v cc

/-- WHAT THE CLOSING POINT OF TILE ROW i WRITES BACK is block i of the row minima. -/
theorem flushed2_eq (c : Dev nD) (t : Fin cfg0.N) (hf : (cfg0.win 2).flush t = true) :
    (dats m 0 c).flushed 2 t = ((cfg0.win 2).blk t).view.read (Elt Ideal) (rowMinArr m c) := by
  have h1 : t.val % 16 = 15 := (flush0_2 t).mp hf
  have hi := index2 t
  show (cfg0.win 2).cut (grid0.coords t) ((dats m 0 c).after 2 t) = _
  rw [after0_2, rowOut_fun m c t h1]
  funext j
  rw [View.read_apply]
  show nearRow (sqdDiff (xs m c) (ys m c)) (rowIdx (ti t) (j 0)) = _
  unfold rowMinArr
  have e0 : rowIdx (ti t) (j 0) = (((cfg0.win 2).blk t).view.emb j) 0 := Fin.ext (by
    show t.val / 16 * 2048 + (j 0).val = win0_2.index t 0 * 2048 + 1 * (j 0).val
    rw [hi.1]; omega)
  rw [e0]
  exact (cast_eq _ _).symm

/-- WHAT POINT (i, j) WRITES BACK is block (i, j) of the per-tile-row column minima. -/
theorem flushed3_eq (c : Dev nD) (t : Fin cfg0.N) :
    (dats m 0 c).flushed 3 t = ((cfg0.win 3).blk t).view.read (Elt Ideal) (colMinArr m c) := by
  have hi := index3 t
  show (cfg0.win 3).cut (grid0.coords t) ((dats m 0 c).after 3 t) = _
  rw [after0_3, colOut_fun m c t]
  funext j
  rw [View.read_apply]
  show Finset.univ.fold min inf32 (fun r : Fin 2048 => sqdDiff (xs m c) (ys m c) (rowIdx (ti t) r) (colIdx (tj t) (j 2))) = _
  unfold colMinArr
  have e0 : ti t = (((cfg0.win 3).blk t).view.emb j) 0 := Fin.ext (by
    show t.val / 16 = win0_3.index t 0 * 1 + 1 * (j 0).val
    have : (j 0).val < 1 := (j 0).isLt
    rw [hi.1]; omega)
  have e2 : colIdx (tj t) (j 2) = (((cfg0.win 3).blk t).view.emb j) 2 := Fin.ext (by
    show t.val % 16 * 1024 + (j 2).val = win0_3.index t 2 * 1024 + 1 * (j 2).val
    rw [hi.2.2]; omega)
  rw [e0, e2]
  exact (cast_eq _ _).symm

/-- An index of the row output is in point t's block iff each coordinate is in the block's range on its axis. -/
theorem mem_blk2 (t : Fin cfg0.N) (i : S16384x1.Idx) :
    i ∈ ((cfg0.win 2).blk t).view.set
      ↔ ∀ a : Fin 2, win0_2.index t a * S2048x1.size a ≤ (i a).val ∧ (i a).val < win0_2.index t a * S2048x1.size a + S2048x1.size a := by
  show i ∈ ((View.whole main_v1_0).slice (win0_2.rect t)).set ↔ _
  rw [View.set_slice_whole, Rect.mem_set_unit]
  exact Iff.rfl

/-- The same for the column output. -/
theorem mem_blk3 (t : Fin cfg0.N) (i : S8x1x16384.Idx) :
    i ∈ ((cfg0.win 3).blk t).view.set
      ↔ ∀ a : Fin 3, win0_3.index t a * S1x1x1024.size a ≤ (i a).val ∧ (i a).val < win0_3.index t a * S1x1x1024.size a + S1x1x1024.size a := by
  show i ∈ ((View.whole main_v1_1).slice (win0_3.rect t)).set ↔ _
  rw [View.set_slice_whole, Rect.mem_set_unit]
  exact Iff.rfl

/-- Row n of the row output lies in the block the closing point of tile row n / 2048 writes. -/
theorem cover2 (i : S16384x1.Idx) :
    ∃ t : Fin cfg0.N, (cfg0.win 2).flush t = true ∧ i ∈ ((cfg0.win 2).blk t).view.set := by
  have h0 : (i 0).val < 16384 := (i 0).isLt
  have h1 : (i 1).val < 1 := (i 1).isLt
  let t : Fin cfg0.N := ⟨(i 0).val / 2048 * 16 + 15, by rw [N128]; omega⟩
  have ht : t.val = (i 0).val / 2048 * 16 + 15 := rfl
  have hi := index2 t
  refine ⟨t, (flush0_2 t).mpr (by rw [ht]; omega), ?_⟩
  rw [mem_blk2]
  intro a
  match a with
  | ⟨0, _⟩ =>
    show win0_2.index t 0 * 2048 ≤ (i 0).val ∧ (i 0).val < win0_2.index t 0 * 2048 + 2048
    rw [hi.1, ht]; omega
  | ⟨1, _⟩ =>
    show win0_2.index t 1 * 1 ≤ (i 1).val ∧ (i 1).val < win0_2.index t 1 * 1 + 1
    rw [hi.2]; omega

/-- Entry (i, 0, mm) of the column output lies in the block point (i, mm / 1024) writes. -/
theorem cover3 (i : S8x1x16384.Idx) :
    ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 16384 := (i 2).isLt
  let t : Fin cfg0.N := ⟨(i 0).val * 16 + (i 2).val / 1024, by rw [N128]; omega⟩
  have ht : t.val = (i 0).val * 16 + (i 2).val / 1024 := rfl
  have hi := index3 t
  refine ⟨t, flush0_3 t, ?_⟩
  rw [mem_blk3]
  intro a
  match a with
  | ⟨0, _⟩ =>
    show win0_3.index t 0 * 1 ≤ (i 0).val ∧ (i 0).val < win0_3.index t 0 * 1 + 1
    rw [hi.1, ht]; omega
  | ⟨1, _⟩ =>
    show win0_3.index t 1 * 1 ≤ (i 1).val ∧ (i 1).val < win0_3.index t 1 * 1 + 1
    rw [hi.2.1]; omega
  | ⟨2, _⟩ =>
    show win0_3.index t 2 * 1024 ≤ (i 2).val ∧ (i 2).val < win0_3.index t 2 * 1024 + 1024
    rw [hi.2.2, ht]; omega

/-- THE ROW OUTPUT after the run. -/
theorem final2 (c : Dev nD) : (dats m 0 c).arrAt 2 cfg0.N = rowMinArr m c :=
  (dats m 0 c).arrAt_eq_of_cover 2 (rowMinArr m c) (flushed2_eq m c) cover2

/-- THE COLUMN OUTPUT after the run. -/
theorem final3 (c : Dev nD) : (dats m 0 c).arrAt 3 cfg0.N = colMinArr m c :=
  (dats m 0 c).arrAt_eq_of_cover 3 (colMinArr m c) (fun t _ => flushed3_eq m c t) cover3

end Chamfer.Kernel

end
-- ==== Proof.KernelValue.lean ====
/-
  The kernel's result.

  After the 128 points the host drops the row output's unit axis (a vector of 16384 row minima), drops the column
  output's unit axis and takes the minimum over the 8 tile rows (a vector of 16384 column minima: a minimum taken
  tile row by tile row is the minimum over all 16384 rows), joins the two vectors, sums the 32768 entries from zero
  and divides by the value of the word 0x47000000. The last three steps are the same on any two vectors: `mean2`.
-/
import proofs.«102126_j82575041233285_2_alg».proof.Proof.Final

-- arrays of 16384 and 32768 entries: reading them through their shapes recurses once per coordinate of the long axis
set_option maxRecDepth 16384

noncomputable section

namespace Chamfer.Kernel

open Idealize.ShloMosaic Idealize.ShloMosaic.TcCoe Idealize.SL.Sem Idealize.ShloMosaic.ValueIdx
open Idealize.ShloMosaic.Pipeline (Dat)
open Cert.KernelIdeal Cert.KernelIdeal.Gen

/-- The mean of two vectors of 16384 entries joined end to end: their 32768 entries summed from zero, divided by the
    value of the word 0x47000000. -/
def mean2 (a b : S16384.Idx → EReal) : S_.Idx → EReal :=
  Host.divf (F := Ideal)
    (Host.reduceAdd (F := Ideal) (concatenate S32768 0 [⟨S16384, a⟩, ⟨S16384, b⟩] concatenates_S16384_S16384_S32768_d0)
      (constant (F := Ideal) S_ .f32 0x00000000#32) reducesTo_S32768_S_d0 h_S_)
    (constant (F := Ideal) S_ .f32 0x47000000#32)

/-- The two vectors of nearest distances for a table of pairwise distances. -/
def nearRowVec (D : Fin 16384 → Fin 16384 → EReal) : S16384.Idx → EReal := fun i => nearRow D (i 0)
def nearColVec (D : Fin 16384 → Fin 16384 → EReal) : S16384.Idx → EReal := fun i => nearCol D (i 0)

variable (m : (ℓ : Loc nD τ sig) → Buf (Elt Ideal) ℓ)

/-- The row output with its unit axis dropped is the vector of row minima. -/
theorem rowVec_eq (c : Dev nD) :
    shapeCast S16384 (rowMinArr m c) shapeCasts_S16384x1_S16384 = nearRowVec (sqdDiff (xs m c) (ys m c)) := by
  funext i
  obtain ⟨n, rfl⟩ : ∃ n : Fin 16384, i = ix1 n := ⟨i 0, eq_ix1 i⟩
  exact MinOps.shapeCast_a1_a_apply (rowMinArr m c) shapeCasts_S16384x1_S16384 n

/-- Every point of the first cloud is some row of some tile row. -/
theorem rowIdx_onto (n : Fin 16384) : ∃ (i : Fin 8) (r : Fin 2048), rowIdx i r = n :=
  ⟨⟨n.val / 2048, by have := n.isLt; omega⟩, ⟨n.val % 2048, Nat.mod_lt _ (by decide)⟩,
    Fin.ext (by show n.val / 2048 * 2048 + n.val % 2048 = n.val; omega)⟩

/-- The column output with its unit axis dropped, reduced over the tile rows, is the vector of column minima. -/
theorem colVec_eq (c : Dev nD) :
    Host.reduce FloatOps.minimumf (shapeCast S8x16384 (colMinArr m c) shapeCasts_S8x1x16384_S8x16384)
        (constant (F := Ideal) S_ .f32 0x7F800000#32) reducesTo_S8x16384_S16384_d0 h_S_
      = nearColVec (sqdDiff (xs m c) (ys m c)) := by
  funext i
  obtain ⟨mm, rfl⟩ : ∃ mm : Fin 16384, i = ix1 mm := ⟨i 0, eq_ix1 i⟩
  refine (MinOps.hostReduce_min_col (φ := .f32) _ _ reducesTo_S8x16384_S16384_d0 (by decide) h_S_ mm).trans ?_
  show Finset.univ.fold min inf32 (fun k : Fin 8 => shapeCast S8x16384 (colMinArr m c) shapeCasts_S8x1x16384_S8x16384 (ix2 k mm))
    = nearCol (sqdDiff (xs m c) (ys m c)) mm
  have e : (fun k : Fin 8 => shapeCast S8x16384 (colMinArr m c) shapeCasts_S8x1x16384_S8x16384 (ix2 k mm))
      = fun k => Finset.univ.fold min inf32 (fun r : Fin 2048 => sqdDiff (xs m c) (ys m c) (rowIdx k r) mm) :=
    funext fun k => RowOps.shapeCast_a1b_ab_apply (colMinArr m c) shapeCasts_S8x1x16384_S8x16384 k mm
  rw [e]
  exact MinFold.fold_min_fold_min inf32 (fun n => sqdDiff (xs m c) (ys m c) n mm) rowIdx rowIdx_onto

/-- The kernel's result on core c. -/
def result (c : Dev nD) : S_.Idx → EReal :=
  mean2 (nearRowVec (sqdDiff (xs m c) (ys m c))) (nearColVec (sqdDiff (xs m c) (ys m c)))

/-- What the host operations after the region leave in the result buffer. -/
theorem tail_eq (c : Dev nD) :
    Pipeline.afterTail₀ cfgs (dats m) 0 (V0 m) [hostOps1] c main_v7 = result m c := by
  unfold Pipeline.afterTail₀
  show StableHlo.after hostOps1 _ (Proc.devRef .tc main_v7) = _
  after_results
  have e2 : Pipeline.withArrays (cfgs 0).spec c (V0 m c) (fun w => (dats m 0 c).arrAt w (cfgs 0).N)
      (Proc.devRef .tc main_v1_0) = rowMinArr m c :=
    (Pipeline.withArrays_arr spec0 launch0.win.arr_inj c _ _ 2).trans (final2 m c)
  have e3 : Pipeline.withArrays (cfgs 0).spec c (V0 m c) (fun w => (dats m 0 c).arrAt w (cfgs 0).N)
      (Proc.devRef .tc main_v1_1) = colMinArr m c :=
    (Pipeline.withArrays_arr spec0 launch0.win.arr_inj c _ _ 3).trans (final3 m c)
  rw [e2, e3]
  dsimp only
  have r2 : (fun i => shapeCast main_v2.ty.shape (rowMinArr m c) shapeCasts_S16384x1_S16384 i)
      = nearRowVec (sqdDiff (xs m c) (ys m c)) := rowVec_eq m c
  have r3 : Host.reduce FloatOps.minimumf
        (fun i => shapeCast main_v3.ty.shape (colMinArr m c) shapeCasts_S8x1x16384_S8x16384 i)
        (constant (F := Ideal) S_ .f32 0x7F800000#32) reducesTo_S8x16384_S16384_d0 h_S_
      = nearColVec (sqdDiff (xs m c) (ys m c)) := colVec_eq m c
  rw [r2, r3]
  rfl

variable (ρ : Dev nD → PrngReg)

/-- THE KERNEL'S RUN, READ: every weakly fair execution ends with the result buffer at `result` and both clouds
    as launched. -/
theorem run : θ_run defs (onTc (τ := τ) (main (F := Ideal))) ⟨m, fun _ => 0, ρ⟩ fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v7 (Pipeline.mem_restRefs_of main_v7 (by decide) (by decide))).trans (tail_eq m c),
        ((h c).1 0).trans (((dats m 0 c).arrAt_in 0 rfl _).trans ((A_eq m c 0).trans (V_main_arg0 m c))),
        ((h c).2 main_arg1 (Pipeline.mem_restRefs_of main_arg1 (by decide) (by decide))).trans
          (W_main_arg1 m (dats m) c)⟩)
    (run_main m ρ)

end Chamfer.Kernel

end
-- ==== Proof.RefValue.lean ====
/-
  What the reference computes, read at an index: its pairwise table is the expanded squared distance, and its two
  reductions are the minima of that table along a row and along a column.
-/
import proofs.«102126_j82575041233285_2_alg».proof.Proof.Spec
import proofs.«102126_j82575041233285_2_alg».proof.Proof.Gen.ReferenceIdeal.Read

noncomputable section

namespace Chamfer.Ref

open Idealize.ShloMosaic Idealize.ShloMosaic.ValueIdx Cert.ReferenceIdeal Cert.ReferenceIdeal.Gen Cert.ReferenceIdeal.Read

/-! ## Where each stage of the table looks

  The table's entry (n, m) is built from three sums over the coordinate k: |xₙ|² is broadcast from a column
  [16384, 1] that was a vector [16384], |yₘ|² from a row [1, 16384] that was a vector [16384], and the cross term
  is a contraction. Each step reads its operand at the index named below. -/

/-- The column of |x|² is read at (n, 0). -/
theorem idx7_eq (n m : Fin 16384) : idx_main_v7 (ix2 n m) = ix2 n (0 : Fin 1) :=
  funext fun a => Fin.ext (by match a with | ⟨0, _⟩ => rfl | ⟨1, _⟩ => rfl)

/-- The vector of |x|² is read at n. -/
theorem idx2_eq (n : Fin 16384) (u : Fin 1) : idx_main_v2 (ix2 n u) = ix1 n :=
  funext fun a => Fin.ext (by match a with | ⟨0, _⟩ => rfl)

/-- The sum |xₙ|² runs over the entries (n, k). -/
theorem idx1_eq (n : Fin 16384) (k : Fin 3) : idx_main_v1 (ix1 n) k = ix2 n k :=
  funext fun a => Fin.ext (by match a with | ⟨0, _⟩ => rfl | ⟨1, _⟩ => rfl)

/-- The row of |y|² is read at (0, m). -/
theorem idx8_eq (n m : Fin 16384) : idx_main_v8 (ix2 n m) = ix2 (0 : Fin 1) m :=
  funext fun a => Fin.ext (by match a with | ⟨0, _⟩ => rfl | ⟨1, _⟩ => rfl)

/-- The vector of |y|² is read at m. -/
theorem idx5_eq (u : Fin 1) (m : Fin 16384) : idx_main_v5 (ix2 u m) = ix1 m :=
  funext fun a => Fin.ext (by match a with | ⟨0, _⟩ => rfl)

/-- The sum |yₘ|² runs over the entries (m, k). -/
theorem idx4_eq (m : Fin 16384) (k : Fin 3) : idx_main_v4 (ix1 m) k = ix2 m k :=
  funext fun a => Fin.ext (by match a with | ⟨0, _⟩ => rfl | ⟨1, _⟩ => rfl)

/-- The contraction's left factor is x at (n, k). -/
theorem lidx6_eq (n m : Fin 16384) (k : Fin 3) : lidx_main_v6 (ix2 n m) k = ix2 n k :=
  funext fun a => Fin.ext (by match a with | ⟨0, _⟩ => rfl | ⟨1, _⟩ => rfl)

/-- The contraction's right factor is y at (m, k). -/
theorem ridx6_eq (n m : Fin 16384) (k : Fin 3) : ridx_main_v6 (ix2 n m) k = ix2 m k :=
  funext fun a => Fin.ext (by match a with | ⟨0, _⟩ => rfl | ⟨1, _⟩ => rfl)

/-- The reference's clamped table at (n, m). -/
theorem table_apply (x y : Cloud) (n m : Fin 16384) :
    val_main_v14 (F := Ideal) x y (ix2 n m) = sqdExpand x y n m := by
  rw [val_main_v14_apply, val_main_v12_apply, val_main_v9_apply, val_main_v7_apply, val_main_v2_apply,
    val_main_v1_apply, val_main_v8_apply, val_main_v5_apply, val_main_v4_apply, val_main_v11_apply,
    val_main_v10_apply, val_main_v6_apply, val_main_v13_apply]
  simp only [val_main_v0_apply, val_main_v3_apply, val_main_cst_apply, val_main_cst_0_apply, val_main_cst_1_apply,
    val_main_cst_2_apply, idx7_eq, idx2_eq, idx1_eq, idx8_eq, idx5_eq, idx4_eq, lidx6_eq, ridx6_eq,
    Ideal.addf_def, Ideal.subf_def, Ideal.mulf_def, Ideal.maximumf_def, Ideal.ofBits_def]
  unfold sqdExpand
  rfl

/-! ## The two reductions

  A reduction of the table along one axis with a minimum body is, at a result index, the minimum folded from the
  initial value over that axis's coordinates: the result index with the coordinate inserted is (n, k) along a row and
  (k, m) along a column. -/

/-- Along axis 1, result index n with coordinate k inserted is (n, k). -/
theorem lift_axis1 (h : S16384x16384.Reduces [1] S16384) (n k : Fin 16384) : h.lift (ix1 n) k = ix2 n k :=
  funext fun c => Fin.ext (by match c with | ⟨0, _⟩ => rfl | ⟨1, _⟩ => rfl)

/-- Along axis 0, result index m with coordinate k inserted is (k, m). -/
theorem lift_axis0 (h : S16384x16384.Reduces [0] S16384) (m k : Fin 16384) : h.lift (ix1 m) k = ix2 k m :=
  funext fun c => Fin.ext (by match c with | ⟨0, _⟩ => rfl | ⟨1, _⟩ => rfl)

/-- Its minimum along row n. -/
theorem rowMin_apply (x y : Cloud) (n : Fin 16384) :
    val_main_v15 (F := Ideal) x y (ix1 n) = nearRow (sqdExpand x y) n := by
  have h : S16384x16384.Reduces [1] S16384 := by decide
  unfold val_main_v15 nearRow
  rw [Host.reduce_eq_fold_single FloatOps.minimumf _ _ reducesTo_S16384x16384_S16384_d1 h h_S_]
  exact congrArg (Finset.univ.fold min inf32)
    (funext fun k => (congrArg (val_main_v14 (F := Ideal) x y) (lift_axis1 h n k)).trans (table_apply x y n k))

/-- Its minimum along column m. -/
theorem colMin_apply (x y : Cloud) (m : Fin 16384) :
    val_main_v16 (F := Ideal) x y (ix1 m) = nearCol (sqdExpand x y) m := by
  have h : S16384x16384.Reduces [0] S16384 := by decide
  unfold val_main_v16 nearCol
  rw [Host.reduce_eq_fold_single FloatOps.minimumf _ _ reducesTo_S16384x16384_S16384_d0 h h_S_]
  exact congrArg (Finset.univ.fold min inf32)
    (funext fun k => (congrArg (val_main_v14 (F := Ideal) x y) (lift_axis0 h m k)).trans (table_apply x y k m))

end Chamfer.Ref

end
-- ==== Proof.Dist.lean ====
/-
  On clouds of real numbers the expanded squared distance is the sum of squared differences:
  (a₀ − b₀)² + (a₁ − b₁)² + (a₂ − b₂)² = (a₀² + a₁² + a₂²) + (b₀² + b₁² + b₂²) − 2·(a₀b₀ + a₁b₁ + a₂b₂) in ℝ.
-/
import proofs.«102126_j82575041233285_2_alg».proof.Proof.Spec
import Idealize.ShloMosaic.PureOps.Ideal.Laws

noncomputable section

namespace Chamfer

open Idealize.ShloMosaic Idealize.ShloMosaic.ValueIdx

/-- The word 0x00000000 denotes the real number 0. -/
theorem zero32_eq : zero32 = ((0 : ℝ) : EReal) := by
  show Ideal.ofBits .f32 0x00000000#32 = _
  rw [Ideal.ofBits_zero_f32, EReal.coe_zero]

/-- The word 0x40000000 (sign 0, exponent 128, fraction 0) denotes 2²³ · 2^(128 − 127 − 23) = 2. -/
theorem two32_eq : two32 = ((2 : ℝ) : EReal) := by
  simp [two32, Ideal.ofBits, Ideal.ieee, -EReal.coe_mul]; norm_num

theorem sqdExpand_eq_sqdDiff (x y : Cloud) (hx : IsReal x) (hy : IsReal y) (n m : Fin 16384) :
    sqdExpand x y n m = sqdDiff x y n m := by
  -- the six coordinates are real numbers
  obtain ⟨a0, ha0⟩ := hx (ix2 n 0)
  obtain ⟨a1, ha1⟩ := hx (ix2 n 1)
  obtain ⟨a2, ha2⟩ := hx (ix2 n 2)
  obtain ⟨b0, hb0⟩ := hy (ix2 m 0)
  obtain ⟨b1, hb1⟩ := hy (ix2 m 1)
  obtain ⟨b2, hb2⟩ := hy (ix2 m 2)
  unfold sqdExpand sqdDiff dsq
  rw [Fin.sum_univ_three, Fin.sum_univ_three, Fin.sum_univ_three, ha0, ha1, ha2, hb0, hb1, hb2]
  -- under the clamp both sides are images of real numbers, equal by (a − b)² = a² + b² − 2ab
  congr 1
  rw [two32_eq, zero32_eq]
  norm_cast
  ring

end Chamfer

end
-- ==== Proof.Bridge.lean ====
/-
  Both programs end with the mean of the same two vectors.

  The reference's result is `mean2` of the row minima and the column minima of the EXPANDED table; the kernel's is
  `mean2` of the row minima and the column minima of the table of SUMMED SQUARED DIFFERENCES. On clouds of real
  numbers the two tables are one table, so the two results are equal.
-/
import proofs.«102126_j82575041233285_2_alg».proof.Proof.KernelValue
import proofs.«102126_j82575041233285_2_alg».proof.Proof.RefValue
import proofs.«102126_j82575041233285_2_alg».proof.Proof.Dist

noncomputable section

namespace Chamfer

open Idealize.ShloMosaic Idealize.ShloMosaic.ValueIdx

/-- On real clouds the expanded table is the table of summed squared differences. -/
theorem table_eq (x y : Cloud) (hx : IsReal x) (hy : IsReal y) : sqdExpand x y = sqdDiff x y :=
  funext fun n => funext fun mm => sqdExpand_eq_sqdDiff x y hx hy n mm

/-- The reference's vector of row minima. -/
theorem ref_rowVec (x y : Cloud) :
    Cert.ReferenceIdeal.Read.val_main_v15 (F := Ideal) x y = Kernel.nearRowVec (sqdExpand x y) :=
  funext fun i => by
    obtain ⟨n, rfl⟩ : ∃ n : Fin 16384, i = ix1 n := ⟨i 0, eq_ix1 i⟩
    exact Ref.rowMin_apply x y n

/-- The reference's vector of column minima. -/
theorem ref_colVec (x y : Cloud) :
    Cert.ReferenceIdeal.Read.val_main_v16 (F := Ideal) x y = Kernel.nearColVec (sqdExpand x y) :=
  funext fun i => by
    obtain ⟨mm, rfl⟩ : ∃ mm : Fin 16384, i = ix1 mm := ⟨i 0, eq_ix1 i⟩
    exact Ref.colMin_apply x y mm

/-- The reference's result: the mean of its two vectors. -/
theorem ref_result (x y : Cloud) :
    Cert.ReferenceIdeal.Read.val_main_v19 (F := Ideal) x y
      = Kernel.mean2 (Kernel.nearRowVec (sqdExpand x y)) (Kernel.nearColVec (sqdExpand x y)) := by
  rw [← ref_rowVec, ← ref_colVec]
  rfl

/-- On real clouds the reference's result is the kernel's. -/
theorem ref_result_real (x y : Cloud) (hx : IsReal x) (hy : IsReal y) :
    Cert.ReferenceIdeal.Read.val_main_v19 (F := Ideal) x y
      = Kernel.mean2 (Kernel.nearRowVec (sqdDiff x y)) (Kernel.nearColVec (sqdDiff x y)) := by
  rw [ref_result, table_eq x y hx hy]

end Chamfer

end
-- ==== Proof.Finite.lean ====
/-
  The precondition says |v| < +∞ for every entry v of both clouds; an extended real with |v| < +∞ is a real number.
-/
import proofs.«102126_j82575041233285_2_alg».proof.Proof.Spec
import proofs.«102126_j82575041233285_2_alg».proof.Proof.Gen.Pre_finite_inputs
import Idealize.ShloMosaic.Lib.ReduceAll

noncomputable section

namespace Chamfer

open Idealize.ShloMosaic Idealize.ShloMosaic.ValueIdx

/-- The word 0x7F800000 (all-ones exponent, zero significand, sign clear) denotes +∞. -/
theorem inf32_eq_top : inf32 = ⊤ := by simp [Ideal.ofBits, Ideal.ieee]

/-- A one-bit word made from a Boolean is 1 only when the Boolean is true. -/
theorem eq_true_of_ofBool_eq_one {b : Bool} (h : BitVec.ofBool b = 1#1) : b = true := by
  cases b
  · exact absurd h (by decide)
  · rfl

/-- An extended real v whose absolute value max v (−v) lies below +∞ is a real number:
    at v = −∞ the maximum is −(−∞) = +∞, at v = +∞ it is +∞ itself. -/
theorem exists_real_of_abs_lt_top (v : EReal) (h : max v (-v) < ⊤) : ∃ r : ℝ, v = (r : EReal) := by
  induction v using EReal.rec with
  | bot => simp at h
  | coe r => exact ⟨r, rfl⟩
  | top => simp at h

/-- One cloud. If the conjunction over all entries of "|x i| < t i" is 1, where t is +∞ everywhere, then every
    entry of x is real: the conjunction being 1 makes each comparison 1, that is |x i| < +∞. -/
theorem isReal_of_all {u : Shape} {axes : List (Fin (⟨2, ![16384, 3]⟩ : Shape).rank)} (x top : Cloud)
    (htop : ∀ i, top i = ⊤) (init : u.Idx → BitVec 1)
    (hr : (⟨2, ![16384, 3]⟩ : Shape).ReducesTo axes ⟨0, ![]⟩) (hu : 0 < u.numel)
    (h : Host.reduce IntOp.andi (cmpf (F := Ideal) (φ := .f32) .olt (Host.absf x) top) init hr hu ix0 = 1#1) :
    IsReal x := by
  intro i
  haveI : Subsingleton (⟨0, ![]⟩ : Shape).Idx := ⟨fun a b => funext fun d => d.elim0⟩
  have hi := Host.reduce_andi_all _ init hr hu ix0 h i
  have hc : BitVec.ofBool (decide (max (x i) (-(x i)) < top i)) = 1#1 := hi
  rw [htop i] at hc
  exact exists_real_of_abs_lt_top (x i) (of_decide_eq_true (eq_true_of_ofBool_eq_one hc))

theorem isReal_of_pre (x y : Cloud) (h : Cert.Pre_finite_inputs.fn (F := Ideal) x y = fun _ => 1#1) :
    IsReal x ∧ IsReal y := by
  have h0 := congrFun h ValueIdx.ix0
  dsimp only [Cert.Pre_finite_inputs.fn] at h0
  obtain ⟨hx, hy⟩ := IntOp.andi_eq_one.1 h0
  have htop : ∀ i, broadcastInDim Cert.Pre_finite_inputs.S16384x3 ![]
      Cert.Pre_finite_inputs.Facts.bcast_S_S16384x3
      (constant (F := Ideal) Cert.Pre_finite_inputs.S_ .f32 0x7F800000#32) i = ⊤ := fun _ => inf32_eq_top
  exact ⟨isReal_of_all x _ htop _ _ _ hx, isReal_of_all y _ htop _ _ _ hy⟩

end Chamfer

end
-- ==== Proof.lean ====
/-
  A fused Chamfer-distance kernel against its jnp reference, over the extended reals.

  Both programs take two clouds x, y of 16384 points in three dimensions and return the mean of the 32768 directed
  nearest-neighbour squared distances: for every point of x the least clamped squared distance to a point of y, and
  for every point of y the least to a point of x.

  The reference forms the 16384 × 16384 table as max(|xₙ|² + |yₘ|² − 2⟨xₙ, yₘ⟩, 0) and reduces it along rows and along
  columns. The kernel walks an 8 × 16 grid of 2048 × 1024 tiles of the table, each entry formed as
  max((xₙ₀ − yₘ₀)² + (xₙ₁ − yₘ₁)² + (xₙ₂ − yₘ₂)², 0); along a tile row it keeps a running row minimum, reset at the
  first tile and copied out after the last, and for every tile it writes the column minima, which the host then
  reduces over the 8 tile rows. A minimum taken block by block, or tile row by tile row, is the minimum; and on real
  numbers the two forms of the table's entry agree since (a − b)² = a² + b² − 2ab. Finiteness of the inputs is used
  exactly there: on the extended reals |x|² + |y|² − 2⟨x, y⟩ may be ∞ − ∞. The final mean is the same operation on
  both sides and is never opened. No rewrite was made when the kernel was idealized, so that conjunct is trivial.
-/
import proofs.«102126_j82575041233285_2_alg».proof.Defs
import proofs.«102126_j82575041233285_2_alg».proof.Proof.Gen.Kernel
import proofs.«102126_j82575041233285_2_alg».proof.Proof.Gen.Kernel.Skeleton
import proofs.«102126_j82575041233285_2_alg».proof.Proof.Gen.Kernel.Launch
import proofs.«102126_j82575041233285_2_alg».proof.Proof.Gen.Kernel.Points
import proofs.«102126_j82575041233285_2_alg».proof.Proof.Gen.Kernel.Frame
import proofs.«102126_j82575041233285_2_alg».proof.Proof.Gen.KernelIdeal
import proofs.«102126_j82575041233285_2_alg».proof.Proof.Gen.KernelIdeal.Skeleton
import proofs.«102126_j82575041233285_2_alg».proof.Proof.Gen.KernelIdeal.Launch
import proofs.«102126_j82575041233285_2_alg».proof.Proof.Gen.KernelIdeal.Points
import proofs.«102126_j82575041233285_2_alg».proof.Proof.Gen.KernelIdeal.Frame
import proofs.«102126_j82575041233285_2_alg».proof.Proof.Gen.ReferenceIdeal
import proofs.«102126_j82575041233285_2_alg».proof.Proof.Gen.ReferenceIdeal.Run
import proofs.«102126_j82575041233285_2_alg».proof.Proof.Gen.ReferenceIdeal.Read
import proofs.«102126_j82575041233285_2_alg».proof.Proof.Gen.Pre_finite_inputs
import proofs.«102126_j82575041233285_2_alg».proof.Proof.Bridge
import proofs.«102126_j82575041233285_2_alg».proof.Proof.Finite
import Idealize.ShloMosaic.Adequacy
import Idealize.ShloMosaic.Init

noncomputable section

namespace Cert.Proof

open Idealize.ShloMosaic Idealize.SL.Sem

/-- The kernel as printed runs and keeps its arguments. -/
theorem frame_k : Cert.frame_Kernel := fun m ρ _ => Cert.Kernel.Gen.frame m ρ

/-- So does its reading at the ideal instance. -/
theorem frame_ki : Cert.frame_KernelIdeal := fun m ρ _ => Cert.KernelIdeal.Gen.frame m ρ

/-- The reference is a straight line of host operations: it runs, and its arguments are never written. -/
theorem frame_ri : Cert.frame_ReferenceIdeal := fun m ρ _ =>
  (θ_run Cert.ReferenceIdeal.defs _ _).mono (fun _ h c => (h c).2) (Cert.ReferenceIdeal.Value.run (F := Ideal) m ρ)

/-- From clouds that agree and are finite, both programs end with the mean of the same nearest distances. -/
theorem algebraic : Cert.algebraic_KernelIdeal_ReferenceIdeal := by
  intro m ρ m' ρ' hpre hagree
  refine ⟨fun c => Chamfer.Kernel.result m c, Chamfer.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hy⟩ := Chamfer.isReal_of_pre _ _ (hpre c)
  rw [(hagree c).1, (hagree c).2]
  exact (Cert.ReferenceIdeal.Read.val_main_v19_eq _ _).trans (Chamfer.ref_result_real _ _ hx hy)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
